-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S100000x1 : Shape := ⟨2, ![100000, 1]⟩
abbrev S64x64 : Shape := ⟨2, ![64, 64]⟩
abbrev S1000000x1 : Shape := ⟨2, ![1000000, 1]⟩
abbrev S1000000 : Shape := ⟨1, ![1000000]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S1000000x1 : S_.BroadcastsInDim S1000000x1 (![] : Fin 0 → Fin S1000000x1.rank)
  reducesTo_S1000000x1_S_d0_1 : S1000000x1.ReducesTo [0, 1] S_

variable [Facts]

def fn_part1 {F : FTy → Type} [FloatOps F] (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  main_v18

def fn {F : FTy → Type} [FloatOps F] (main_arg0 : FVec F S1000000x64 .f32) (main_arg1 : FVec F S100000x1 .f32) (main_arg2 : FVec F S64x64 .f32) (main_arg3 : FVec F S1000000x1 .f32) (main_arg4 : IVec S1000000 32) (main_arg5 : IVec S1000000 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1000000x1 .f32 := Host.absf main_arg3
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_v13 main_v16
-- ==== Kernel.lean ====
abbrev S1000000x64 : Shape := ⟨2, ![1000000, 64]⟩
abbrev S100000x1 : Shape := ⟨2, ![100000, 1]⟩
abbrev S64x64 : Shape := ⟨2, ![64, 64]⟩
abbrev S1000000x1 : Shape := ⟨2, ![1000000, 1]⟩
abbrev S1000000 : Shape := ⟨1, ![1000000]⟩
abbrev S_ : Shape := ⟨0, ![]⟩
abbrev S25000x64 : Shape := ⟨2, ![25000, 64]⟩
abbrev S25000x1 : Shape := ⟨2, ![25000, 1]⟩
abbrev S100000x64 : Shape := ⟨2, ![100000, 64]⟩

abbrev nBuf : Space → Nat
  | .hbm => 24
  | .vmem => 7
  | .smem => 0
  | _ => 0

abbrev bufTy : (tb : Table) → Fin (tcTables nBuf tb) → BufTy
  | .hbm, ⟨0, _⟩ => ⟨S1000000x64, .f32⟩
  | .hbm, ⟨1, _⟩ => ⟨S100000x1, .f32⟩
  | .hbm, ⟨2, _⟩ => ⟨S64x64, .f32⟩
  | .hbm, ⟨3, _⟩ => ⟨S1000000x1, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x1, .f32⟩
  | .hbm, ⟨15, _⟩ => ⟨S1000000x1, .f32⟩
  | .hbm, ⟨16, _⟩ => ⟨S64x64, .f32⟩
  | .hbm, ⟨17, _⟩ => ⟨S1000000x64, .f32⟩
  | .hbm, ⟨18, _⟩ => ⟨S_, .f32⟩
  | .hbm, ⟨19, _⟩ => ⟨S100000x64, .f32⟩
  | .hbm, ⟨20, _⟩ => ⟨S1000000x1, .i32⟩
  | .hbm, ⟨21, _⟩ => ⟨S100000x64, .f32⟩
  | .hbm, ⟨22, _⟩ => ⟨S100000x64, .f32⟩
  | .hbm, ⟨23, _⟩ => ⟨S100000x64, .f32⟩
  | .local _ .vmem, ⟨0, _⟩ => ⟨S25000x64, .f32⟩
  | .local _ .vmem, ⟨1, _⟩ => ⟨S25000x64, .f32⟩
  | .local _ .vmem, ⟨2, _⟩ => ⟨S64x64, .f32⟩
  | .local _ .vmem, ⟨3, _⟩ => ⟨S25000x1, .f32⟩
  | .local _ .vmem, ⟨4, _⟩ => ⟨S25000x1, .f32⟩
  | .local _ .vmem, ⟨5, _⟩ => ⟨S25000x64, .f32⟩
  | .local _ .vmem, ⟨6, _⟩ => ⟨S25000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S25000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  inb_S25000x64_S25000x64_0_0 : ∀ a, (![0, 0] : Fin 2 → Nat) a + S25000x64.size a ≤ S25000x64.size a
  h_S25000x64 : 0 < S25000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S25000x1_S25000x1_0_0 : ∀ a, (![0, 0] : Fin 2 → Nat) a + S25000x1.size a ≤ S25000x1.size a
  h_S25000x1 : 0 < S25000x1.numel
  shapeCasts_S25000x1_S25000x1 : S25000x1.ShapeCasts S25000x1
  broadcasts_S25000x1_S25000x64 : S25000x1.Broadcasts S25000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x1_S1000000x1_S1000000x1_1_0_n_n_0_1_11_wf : GatherDims.WF S100000x1 S1000000x1 S1000000x1 [1] [0] [] [0] [] 1 ![1, 1]
  dot_S25000x64_S64x64_S25000x64_1_0_0_1_n_n_wf : DotDims.WF S25000x64 S64x64 S25000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S1000000x64.size a
  hwx0_0 : ∀ i : grid0.Coords, EltTy.bits .f32 = 32 ∨ (Rect.block (s := S1000000x64) S25000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x1.size a ≤ S1000000x1.size a
  hwx0_2 : ∀ i : grid0.Coords, EltTy.bits .f32 = 32 ∨ (Rect.block (s := S1000000x1) S25000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S25000x64.size a ≤ S1000000x64.size a
  hwx0_3 : ∀ i : grid0.Coords, EltTy.bits .f32 = 32 ∨ (Rect.block (s := S1000000x64) S25000x64.size (cc0_transform_3 i) (hinb0_3 i)).WholeWords (EltTy.packing .f32)

variable [Facts₀]

def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S25000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S25000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S100000x1 : Shape := ⟨2, ![100000, 1]⟩
abbrev S64x64 : Shape := ⟨2, ![64, 64]⟩
abbrev S1000000x1 : Shape := ⟨2, ![1000000, 1]⟩
abbrev S1000000 : Shape := ⟨1, ![1000000]⟩
abbrev S_ : Shape := ⟨0, ![]⟩
abbrev S100000x64 : Shape := ⟨2, ![100000, 64]⟩

abbrev nBuf : Space → Nat
  | .hbm => 25
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S100000x1, .f32⟩
  | .hbm, ⟨2, _⟩ => ⟨S64x64, .f32⟩
  | .hbm, ⟨3, _⟩ => ⟨S1000000x1, .f32⟩
  | .hbm, ⟨4, _⟩ => ⟨S1000000, .i32⟩
  | .hbm, ⟨5, _⟩ => ⟨S1000000, .i32⟩
  | .hbm, ⟨6, _⟩ => ⟨S1000000x64, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x1, .f32⟩
  | .hbm, ⟨16, _⟩ => ⟨S1000000x1, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S100000x64, .f32⟩
  | .hbm, ⟨24, _⟩ => ⟨S100000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S1000000x64_S64x64_S1000000x64_1_1_0_0_n_n_wf : DotDims.WF S1000000x64 S64x64 S1000000x64 [1] [1] [0] [0] [] []
  gather_S100000x1_S1000000x1_S1000000x1_1_0_n_n_0_1_11_wf : GatherDims.WF S100000x1 S1000000x1 S1000000x1 [1] [0] [] [0] [] 1 ![1, 1]
  scatter_S100000x64_S1000000x1_S1000000x64_1_0_0_1_wf : ScatterDims.WF S100000x64 S1000000x1 S1000000x64 [1] [0] [0] 1

variable [Facts₀]

def dot_S1000000x64_S64x64_S1000000x64_1_1_0_0_n_n : DotDims S1000000x64 S64x64 S1000000x64 where
  lhsContracting := [1]
  rhsContracting := [1]
  lhsNonContracting := [0]
  rhsNonContracting := [0]
  lhsBatch := []
  rhsBatch := []
  wf := dot_S1000000x64_S64x64_S1000000x64_1_1_0_0_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.EdgeBlock.lean ====
/-
  One grid point's block of edge messages, entry by entry, over the extended reals.

  A grid point holds 25000 consecutive edges. For edge `p` of the block and output feature `q` the body
  multiplies the block of edge features by the transposed weight matrix and scales row `p` by that edge's
  factor:   message (p, q) = (∑ k < 64, feat (p, k) · wt (k, q)) · scale (p, 0).
  The narrowing of both matrix operands to bf16 is the identity on extended reals, the accumulator the
  product starts from is the zero word, and the column of factors is broadcast along the feature axis, so
  nothing else is left of the body.
-/
import proofs.«177467_j9268539425563_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Edge

open Cert.KernelIdeal Cert.KernelIdeal.Gen Idealize.ShloMosaic Idealize.ShloMosaic.TcCoe Idealize.SL.Sem
open Idealize.ShloMosaic.ValueIdx

/-! ## Which entries of the two operands the product at (p, q) and contraction position k reads -/

/-- The left operand is read in the output's row. -/
theorem lhs_blk_0 (i : S25000x64.Idx) (q : dot_S25000x64_S64x64_S25000x64_1_0_0_1_n_n.contr.Idx) :
    (dot_S25000x64_S64x64_S25000x64_1_0_0_1_n_n.lhsIdx i q 0).val = (i 0).val := by
  unfold DotDims.lhsIdx
  rw [dif_neg (show ¬(0 : Fin S25000x64.rank) ∈ dot_S25000x64_S64x64_S25000x64_1_0_0_1_n_n.lhsBatch by decide), dif_pos (show (0 : Fin S25000x64.rank) ∈ dot_S25000x64_S64x64_S25000x64_1_0_0_1_n_n.lhsNonContracting by decide)]
  rfl
/-- … at the contraction position's column. -/
theorem lhs_blk_1 (i : S25000x64.Idx) (q : dot_S25000x64_S64x64_S25000x64_1_0_0_1_n_n.contr.Idx) :
    (dot_S25000x64_S64x64_S25000x64_1_0_0_1_n_n.lhsIdx i q 1).val = (q ⟨0, by decide⟩).val :=
  dot_S25000x64_S64x64_S25000x64_1_0_0_1_n_n.lhsIdx_val_of_single rfl i q
/-- The right operand is read at the contraction position's row … -/
theorem rhs_blk_0 (i : S25000x64.Idx) (q : dot_S25000x64_S64x64_S25000x64_1_0_0_1_n_n.contr.Idx) :
    (dot_S25000x64_S64x64_S25000x64_1_0_0_1_n_n.rhsIdx i q 0).val = (q ⟨0, by decide⟩).val :=
  dot_S25000x64_S64x64_S25000x64_1_0_0_1_n_n.rhsIdx_val_of_single rfl i q
/-- … in the output's column. -/
theorem rhs_blk_1 (i : S25000x64.Idx) (q : dot_S25000x64_S64x64_S25000x64_1_0_0_1_n_n.contr.Idx) :
    (dot_S25000x64_S64x64_S25000x64_1_0_0_1_n_n.rhsIdx i q 1).val = (i 1).val := by
  unfold DotDims.rhsIdx
  rw [dif_neg (show ¬(1 : Fin S64x64.rank) ∈ dot_S25000x64_S64x64_S25000x64_1_0_0_1_n_n.rhsBatch by decide), dif_pos (show (1 : Fin S64x64.rank) ∈ dot_S25000x64_S64x64_S25000x64_1_0_0_1_n_n.rhsNonContracting by decide)]
  rfl

/-- The matrix product of two blocks into the zero accumulator, at (p, q): the sum over the 64 contraction
    positions of left (p, k) times right (k, q). -/
theorem product_apply (a : FVec Ideal S25000x64 .bf16) (b : FVec Ideal S64x64 .bf16) (p : Fin 25000) (q : Fin 64) :
    matmul dot_S25000x64_S64x64_S25000x64_1_0_0_1_n_n none a b (constant S25000x64 .f32 0x00000000#32) (ix2 p q)
      = ∑ k : Fin 64, a (ix2 p k) * b (ix2 k q) := by
  simp only [matmul]
  rw [Ideal.matmul_constant_zero_apply, ← Equiv.sum_comp (contrEquiv1 dot_S25000x64_S64x64_S25000x64_1_0_0_1_n_n 64 rfl rfl).symm]
  refine Finset.sum_congr rfl fun k _ => ?_
  have hk := contrEquiv1_symm_val dot_S25000x64_S64x64_S25000x64_1_0_0_1_n_n 64 rfl rfl k
  have el : dot_S25000x64_S64x64_S25000x64_1_0_0_1_n_n.lhsIdx (ix2 p q) ((contrEquiv1 dot_S25000x64_S64x64_S25000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S25000x64_S64x64_S25000x64_1_0_0_1_n_n.rhsIdx (ix2 p q) ((contrEquiv1 dot_S25000x64_S64x64_S25000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-- The column of per-edge factors broadcast along the feature axis, at (p, q), is the factor of row p. -/
theorem factor_apply (s : FVec Ideal S25000x1 .f32) (p : Fin 25000) (q : Fin 64) :
    broadcastTo S25000x64 s broadcasts_S25000x1_S25000x64 (ix2 p q) = s (ix2 p 0) :=
  broadcastTo_apply s broadcasts_S25000x1_S25000x64 (ix2 p q) (ix2 p 0) (fun a => match a with
    | ⟨0, _⟩ => by show p.val = if (25000 : Nat) = 1 then 0 else p.val; rw [if_neg (by decide)]
    | ⟨1, _⟩ => by show (0 : Nat) = if (1 : Nat) = 1 then 0 else q.val; rw [if_pos rfl])

/-- THE BLOCK OF MESSAGES at (p, q): the row of features times the column of the transposed weights, scaled by
    the edge's factor. -/
theorem message_apply (x0 : Vec Ideal S25000x64 .f32) (x1 : Vec Ideal S64x64 .f32) (x2 : Vec Ideal S25000x1 .f32)
    (p : Fin 25000) (q : Fin 64) :
    k0_pay1 (F := Ideal) x0 x1 x2 (ix2 p q) = (∑ k : Fin 64, x0 (ix2 p k) * x1 (ix2 k q)) * x2 (ix2 p 0) := by
  unfold k0_pay1
  rw [mulf_apply, shapeCast_self, shapeCast_self, factor_apply, product_apply]
  rfl

/-- The messages of all edges from the feature rows, the transposed weights and the per-edge factors. -/
def messages (feat : S1000000x64.Idx → EReal) (wt : S64x64.Idx → EReal) (scale : S1000000x1.Idx → EReal) :
    S1000000x64.Idx → EReal :=
  fun i => (∑ k : Fin 64, feat (ix2 (i 0) k) * wt (ix2 k (i 1))) * scale (ix2 (i 0) 0)

/-- If the three blocks are rows 25000·T … of the feature array, the whole weight matrix and rows 25000·T … of the
    factor column, entry (p, q) of the block of messages is the message of edge 25000·T + p at feature q. -/
theorem message_of_blocks (x0 : Vec Ideal S25000x64 .f32) (x1 : Vec Ideal S64x64 .f32) (x2 : Vec Ideal S25000x1 .f32)
    (feat : S1000000x64.Idx → EReal) (wt : S64x64.Idx → EReal) (scale : S1000000x1.Idx → EReal) (T : Nat)
    (h0 : ∀ (x : S25000x64.Idx) (k : S1000000x64.Idx), (k 0).val = 25000 * T + (x 0).val → (k 1).val = (x 1).val → x0 x = feat k)
    (h1 : ∀ (x : S64x64.Idx) (k : S64x64.Idx), (k 0).val = (x 0).val → (k 1).val = (x 1).val → x1 x = wt k)
    (h2 : ∀ (x : S25000x1.Idx) (k : S1000000x1.Idx), (k 0).val = 25000 * T + (x 0).val → (k 1).val = (x 1).val → x2 x = scale k)
    (p : Fin 25000) (q : Fin 64) (i : S1000000x64.Idx)
    (hi0 : (i 0).val = 25000 * T + p.val) (hi1 : (i 1).val = q.val) :
    k0_pay1 (F := Ideal) x0 x1 x2 (ix2 p q) = messages feat wt scale i := by
  rw [message_apply]
  unfold messages
  congr 1
  · refine Finset.sum_congr rfl fun k _ => ?_
    congr 1
    · exact h0 (ix2 p k) (ix2 (i 0) k) hi0 rfl
    · exact h1 (ix2 k q) (ix2 k (i 1)) rfl hi1
  · exact h2 (ix2 p 0) (ix2 (i 0) 0) hi0 rfl

end Cert.KernelIdeal.Edge

end
-- ==== Proof.EdgeArray.lean ====
/-
  The array of edge messages the region leaves behind, as one function of the arrays it was given.

  The grid has 40 points; point t stages rows 25000·t … 25000·t + 24999 of the edge features and of the column of
  per-edge factors, the whole transposed weight matrix, and writes the same rows of the message array. By the
  block's entry-by-entry reading, row e and feature f of what point e / 25000 writes back is
      (∑ k < 64, feat (e, k) · wt (k, f)) · scale (e, 0),
  and the 40 row ranges tile the million rows, so the array ends holding that function everywhere.
-/
import proofs.«177467_j9268539425563_1_alg».proof.Proof.Gen.KernelIdeal.Frame
import proofs.«177467_j9268539425563_1_alg».proof.Proof.EdgeBlock

set_option maxRecDepth 16384

noncomputable section

namespace Cert.KernelIdeal.Edge

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block indices at point t: the row-blocked windows sit at block row t, column 0; the weights at (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's block of edge features is rows 25000·t … of the feature array. -/
theorem feat_block (c : Dev nD) (t : Fin cfg0.N) (x : S25000x64.Idx) (k : S1000000x64.Idx)
    (hk0 : (k 0).val = 25000 * t.val + (x 0).val) (hk1 : (k 1).val = (x 1).val) :
    (iblk m c 0 t : Vec Ideal S25000x64 .f32) x = (V m c main_arg0 : S1000000x64.Idx → Elt Ideal .f32) k := by
  obtain ⟨h0, h1, -⟩ := block_indices t
  unfold iblk
  rw [View.read_apply]
  show V m c main_arg0 _ = V m c main_arg0 _
  congr 1
  funext a
  apply Fin.ext
  match a with
  | ⟨0, _⟩ => show win0_0.index t 0 * 25000 + 1 * (x 0).val = (k 0).val; rw [h0, hk0]; omega
  | ⟨1, _⟩ => show win0_0.index t 1 * 64 + 1 * (x 1).val = (k 1).val; rw [h1, hk1]; omega

/-- Every point stages the whole transposed weight matrix. -/
theorem weight_block (c : Dev nD) (t : Fin cfg0.N) (x : S64x64.Idx) (k : S64x64.Idx)
    (hk0 : (k 0).val = (x 0).val) (hk1 : (k 1).val = (x 1).val) :
    (iblk m c 1 t : Vec Ideal S64x64 .f32) x = (V m c main_v8 : S64x64.Idx → Elt Ideal .f32) k := by
  obtain ⟨-, -, h0, h1, -⟩ := block_indices t
  unfold iblk
  rw [View.read_apply]
  show V m c main_v8 _ = V m c main_v8 _
  congr 1
  funext a
  apply Fin.ext
  match a with
  | ⟨0, _⟩ => show win0_1.index t 0 * 64 + 1 * (x 0).val = (k 0).val; rw [h0, hk0]; omega
  | ⟨1, _⟩ => show win0_1.index t 1 * 64 + 1 * (x 1).val = (k 1).val; rw [h1, hk1]; omega

/-- Point t's block of per-edge factors is rows 25000·t … of the factor column. -/
theorem factor_block (c : Dev nD) (t : Fin cfg0.N) (x : S25000x1.Idx) (k : S1000000x1.Idx)
    (hk0 : (k 0).val = 25000 * t.val + (x 0).val) (hk1 : (k 1).val = (x 1).val) :
    (iblk m c 2 t : Vec Ideal S25000x1 .f32) x = (V m c main_v7 : S1000000x1.Idx → Elt Ideal .f32) k := by
  obtain ⟨-, -, -, -, h0, h1, -⟩ := block_indices t
  unfold iblk
  rw [View.read_apply]
  show V m c main_v7 _ = V m c main_v7 _
  congr 1
  funext a
  apply Fin.ext
  match a with
  | ⟨0, _⟩ => show win0_2.index t 0 * 25000 + 1 * (x 0).val = (k 0).val; rw [h0, hk0]; omega
  | ⟨1, _⟩ => show win0_2.index t 1 * 1 + 1 * (x 1).val = (k 1).val; rw [h1, hk1]; omega

/-- WHAT POINT t WRITES BACK is its block of the messages. -/
theorem flushed_eq (c : Dev nD) (t : Fin cfg0.N) :
    (dats m 0 c).flushed 3 t
      = ((cfg0.win 3).blk t).view.read (Elt Ideal) (messages (V m c main_arg0) (V m c main_v8) (V m c main_v7)) := by
  show (cfg0.win 3).cut (grid0.coords t) ((dats m 0 c).after 3 t) = _
  rw [after0_3]
  unfold out0_3
  rw [View.canon_unit_zero zero_offsets]
  simp only [View.ld_unit_zero (S := S25000x64) zero_offsets, View.ld_unit_zero (S := S64x64) zero_offsets,
    View.ld_unit_zero (S := S25000x1) zero_offsets]
  obtain ⟨-, -, -, -, -, -, h0, h1⟩ := block_indices t
  funext j
  show k0_pay1 (F := Ideal) (iblk m c 0 t) (iblk m c 1 t) (iblk m c 2 t) j
    = messages (V m c main_arg0) (V m c main_v8) (V m c main_v7) (((cfg0.win 3).blk t).view.emb j)
  obtain ⟨p, q, rfl⟩ : ∃ (p : Fin 25000) (q : Fin 64), j = ix2 p q := ⟨j 0, j 1, eq_ix2 j⟩
  refine message_of_blocks (iblk m c 0 t) (iblk m c 1 t) (iblk m c 2 t) _ _ _ t.val
    (feat_block m c t) (weight_block m c t) (factor_block m c t) p q _ ?_ ?_
  · show win0_3.index t 0 * 25000 + 1 * p.val = _; rw [h0]; omega
  · show win0_3.index t 1 * 64 + 1 * q.val = _; rw [h1]; omega

/-- An index of the message array is in point t's block iff each coordinate is in the block's range. -/
theorem mem_block (t : Fin cfg0.N) (i : S1000000x64.Idx) :
    i ∈ ((cfg0.win 3).blk t).view.set ↔ ∀ a : Fin 2, win0_3.index t a * S25000x64.size a ≤ (i a).val ∧ (i a).val < win0_3.index t a * S25000x64.size a + S25000x64.size a := by
  show i ∈ ((View.whole main_v9).slice (win0_3.rect t)).set ↔ _
  rw [View.set_slice_whole, Rect.mem_set_unit]
  exact Iff.rfl

/-- Row e lies in the block of point e / 25000: the blocks tile the array. -/
theorem covered (i : S1000000x64.Idx) :
    ∃ t : Fin cfg0.N, (cfg0.win 3).flush t = true ∧ i ∈ ((cfg0.win 3).blk t).view.set := by
  have hi0 : (i 0).val < 1000000 := (i 0).isLt
  have hi1 : (i 1).val < 64 := (i 1).isLt
  have hN : cfg0.N = 40 := N_0
  obtain ⟨t, ht⟩ : ∃ t : Fin cfg0.N, t.val = (i 0).val / 25000 := ⟨⟨(i 0).val / 25000, by rw [hN]; omega⟩, rfl⟩
  obtain ⟨-, -, -, -, -, -, h0, h1⟩ := block_indices t
  refine ⟨t, flush0_3 t, ?_⟩
  rw [mem_block]
  intro a
  match a with
  | ⟨0, _⟩ => show win0_3.index t 0 * 25000 ≤ (i 0).val ∧ (i 0).val < win0_3.index t 0 * 25000 + 25000; rw [h0, ht]; omega
  | ⟨1, _⟩ => show win0_3.index t 1 * 64 ≤ (i 1).val ∧ (i 1).val < win0_3.index t 1 * 64 + 64; rw [h1]; omega

/-- THE MESSAGE ARRAY after the region. -/
theorem message_array (c : Dev nD) :
    (dats m 0 c).arrAt 3 cfg0.N = messages (V m c main_arg0) (V m c main_v8) (V m c main_v7) :=
  (dats m 0 c).arrAt_eq_of_cover 3 _ (fun t _ => flushed_eq m c t) covered

end Cert.KernelIdeal.Edge

end
-- ==== Proof.EdgeRun.lean ====
/-
  The whole program's result, as one function of its arguments.

  Before the region the host gathers the node weight of every edge's source (a negative index counted from the
  end) and multiplies it by the dropout mask — the per-edge factor column — and transposes the weight matrix.
  The region leaves the array of edge messages. After it the host adds every edge's message row into the row of
  its destination node, starting from zeros, and scales node n's row by that node's weight.
-/
import proofs.«177467_j9268539425563_1_alg».proof.Proof.EdgeArray
import Idealize.ShloMosaic.Lib.StableHlo.Run

set_option maxRecDepth 16384

noncomputable section

namespace Cert.KernelIdeal.Edge

open Cert.KernelIdeal Cert.KernelIdeal.Gen Idealize.ShloMosaic Idealize.ShloMosaic.TcCoe Idealize.SL.Sem
open Idealize.ShloMosaic.StableHlo
open Idealize.ShloMosaic.Pipeline (Dat)

/-- The per-edge factor: the node weight gathered at the edge's source index (100000 added to a negative one),
    times the edge's dropout mask entry. -/
def factors (ci : FVec Ideal S100000x1 .f32) (drop : FVec Ideal S1000000x1 .f32) (src : IVec S1000000 32) :
    FVec Ideal S1000000x1 .f32 :=
  mulf (F := Ideal) (Host.gather gather_S100000x1_S1000000x1_S1000000x1_1_0_n_n_0_1_11 ci
    (broadcastInDim S1000000x1 ![0] bcast_S1000000_S1000000x1_0
      (select (cmpi .slt src (broadcastInDim S1000000 ![] bcast_S_S1000000 (constantI S_ 32 0#32)))
        (addi src (broadcastInDim S1000000 ![] bcast_S_S1000000 (constantI S_ 32 100000#32))) src))) drop

/-- Messages summed into their destination nodes' rows, each row then scaled by its node's weight. -/
def aggregate (ci : FVec Ideal S100000x1 .f32) (dst : IVec S1000000 32) (msg : FVec Ideal S1000000x64 .f32) :
    FVec Ideal S100000x64 .f32 :=
  mulf (F := Ideal) (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 dst) msg)
    (broadcastInDim S100000x64 ![0, 1] bcast_S100000x1_S100000x64_0_1 ci)

variable (m : (ℓ : Loc nD τ sig) → Buf (Elt Ideal) ℓ) (ρ : Dev nD → PrngReg)

/-- The factor column the region is given. -/
theorem factor_array (c : Dev nD) :
    V m c main_v7 = factors (m ((c.tc : Thread nD τ).loc main_arg1)) (m ((c.tc : Thread nD τ).loc main_arg3)) (m ((c.tc : Thread nD τ).loc main_arg4)) := by
  show StableHlo.after hostOps0 (fun b => m (c, b)) (Proc.devRef .tc main_v7) = _
  after_results
  rfl

/-- The weight matrix the region is given is the argument transposed. -/
theorem weight_array (c : Dev nD) :
    V m c main_v8 = transpose S64x64 [1, 0] (m ((c.tc : Thread nD τ).loc main_arg2)) transposes_S64x64_S64x64_1_0 := by
  show StableHlo.after hostOps0 (fun b => m (c, b)) (Proc.devRef .tc main_v8) = _
  after_results

/-- The program's result from its arguments. -/
def result (c : Dev nD) : FVec Ideal S100000x64 .f32 :=
  aggregate (m ((c.tc : Thread nD τ).loc main_arg1)) (m ((c.tc : Thread nD τ).loc main_arg5))
    (messages (m ((c.tc : Thread nD τ).loc main_arg0))
      (transpose S64x64 [1, 0] (m ((c.tc : Thread nD τ).loc main_arg2)) transposes_S64x64_S64x64_1_0)
      (factors (m ((c.tc : Thread nD τ).loc main_arg1)) (m ((c.tc : Thread nD τ).loc main_arg3)) (m ((c.tc : Thread nD τ).loc main_arg4))))

/-- What the host lines after the region leave in the result buffer. -/
theorem result_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  have h9 : Pipeline.withArrays (cfgs 0).spec c (V0 m c) (fun w => (dats m 0 c).arrAt w (cfgs 0).N) (Proc.devRef .tc main_v9)
      = messages (V m c main_arg0) (V m c main_v8) (V m c main_v7) :=
    (Pipeline.withArrays_arr spec0 launch0.win.arr_inj c _ _ 3).trans (message_array m c)
  have h5 : Pipeline.withArrays (cfgs 0).spec c (V0 m c) (fun w => (dats m 0 c).arrAt w (cfgs 0).N) (Proc.devRef .tc main_arg5)
      = m ((c.tc : Thread nD τ).loc main_arg5) :=
    (Pipeline.withArrays_of_ne _ c (V0 m c) _ main_arg5 (by exact (by decide : ∀ w, Pipeline.arrRef spec0 w ≠ main_arg5))).trans (V_main_arg5 m c)
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  rw [h9, h5, h1, V_main_arg0, weight_array, factor_array]
  rfl

/-- THE RUN, READ: every fair execution of the program ends with the result buffer at `result` of the arguments
    and the arguments as they were. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Edge

end
-- ==== Proof.RefValue.lean ====
/-
  The reference computes the same result.

  Its array of edge messages is the product of the feature rows with the weight matrix contracted along the second
  axis of both, times the broadcast factor column: at edge e and feature f,
      (∑ k < 64, feat (e, k) · W (f, k)) · scale (e, 0),
  and W (f, k) is the transposed matrix at (k, f). The factor column and the summation of the messages into their
  destination nodes are the same host operations on both sides.
-/
import proofs.«177467_j9268539425563_1_alg».proof.Proof.Gen.ReferenceIdeal.Read
import proofs.«177467_j9268539425563_1_alg».proof.Proof.EdgeRun

noncomputable section

namespace Cert.ReferenceIdeal.Edge

open Cert.ReferenceIdeal Cert.ReferenceIdeal.Gen Cert.ReferenceIdeal.Read Idealize.ShloMosaic Idealize.ShloMosaic.TcCoe Idealize.SL.Sem
open Idealize.ShloMosaic.ValueIdx
open Cert.KernelIdeal.Edge (messages factors aggregate)

/-- The transposed weight matrix at (k, f) is the weight matrix at (f, k). -/
theorem transposed_apply (w : FVec Ideal S64x64 .f32) (k f : Fin 64) :
    transpose Cert.KernelIdeal.S64x64 [1, 0] w Cert.KernelIdeal.Gen.transposes_S64x64_S64x64_1_0 (ix2 k f) = w (ix2 f k) :=
  transpose_apply [1, 0] w _ (ix2 k f) (ix2 f k) (fun b => match b with
    | ⟨0, _⟩ => rfl
    | ⟨1, _⟩ => rfl)

/-- The reference's message array is the kernel's function of the features, the transposed weights and the factors. -/
theorem messages_eq (x0 : FVec Ideal S1000000x64 .f32) (x1 : FVec Ideal S100000x1 .f32) (x2 : FVec Ideal S64x64 .f32)
    (x3 : FVec Ideal S1000000x1 .f32) (x4 : IVec S1000000 32) :
    val_main_v10 (F := Ideal) x0 x1 x2 x3 x4
      = messages x0 (transpose Cert.KernelIdeal.S64x64 [1, 0] x2 Cert.KernelIdeal.Gen.transposes_S64x64_S64x64_1_0)
          (val_main_v8 (F := Ideal) x1 x3 x4) := by
  funext i
  obtain ⟨e, f, rfl⟩ : ∃ (e : Fin 1000000) (f : Fin 64), i = ix2 e f := ⟨i 0, i 1, eq_ix2 i⟩
  rw [val_main_v10_apply, val_main_v0_apply, val_main_v9_apply]
  show (∑ k : Fin 64, x0 (lidx_main_v0 (ix2 e f) k) * x2 (ridx_main_v0 (ix2 e f) k))
        * val_main_v8 (F := Ideal) x1 x3 x4 (idx_main_v9 (ix2 e f))
      = (∑ k : Fin 64, x0 (ix2 e k)
            * transpose Cert.KernelIdeal.S64x64 [1, 0] x2 Cert.KernelIdeal.Gen.transposes_S64x64_S64x64_1_0 (ix2 k f))
        * val_main_v8 (F := Ideal) x1 x3 x4 (ix2 e 0)
  congr 1
  · refine Finset.sum_congr rfl fun k _ => ?_
    rw [transposed_apply]
    congr 1
    · exact congrArg x0 (funext fun a => Fin.ext (by match a with | ⟨0, _⟩ => rfl | ⟨1, _⟩ => rfl))
    · exact congrArg x2 (funext fun a => Fin.ext (by match a with | ⟨0, _⟩ => rfl | ⟨1, _⟩ => rfl))
  · exact congrArg (val_main_v8 (F := Ideal) x1 x3 x4) (funext fun a => Fin.ext (by match a with | ⟨0, _⟩ => rfl | ⟨1, _⟩ => rfl))

/-- THE REFERENCE'S RESULT is the kernel's function of the arguments. -/
theorem result_eq (x0 : FVec Ideal S1000000x64 .f32) (x1 : FVec Ideal S100000x1 .f32) (x2 : FVec Ideal S64x64 .f32)
    (x3 : FVec Ideal S1000000x1 .f32) (x4 x5 : IVec S1000000 32) :
    val_main_v15 (F := Ideal) x0 x1 x2 x3 x4 x5
      = aggregate x1 x5 (messages x0 (transpose Cert.KernelIdeal.S64x64 [1, 0] x2 Cert.KernelIdeal.Gen.transposes_S64x64_S64x64_1_0)
          (factors x1 x3 x4)) := by
  unfold val_main_v15 val_main_v13
  rw [messages_eq]
  rfl

end Cert.ReferenceIdeal.Edge

end
-- ==== Proof.lean ====
/-
  A graph-convolution message-passing layer: the kernel against its reference, over the extended reals.

  Both programs compute, for node n and feature f,
      ci (n) · ∑ over edges e with dst (e) = n of (∑ k < 64, feat (e, k) · W (f, k)) · (ci (src e) · drop (e)).
  The kernel forms the per-edge factor ci (src e) · drop (e) and the transposed weights on the host, computes the
  messages 25000 edges at a time as a matrix product into a zero accumulator scaled row by row, and leaves the
  summation into destination nodes and the final scaling to the host; the reference contracts the feature rows with
  the weight matrix along the second axis of both and does the rest with the same host operations. Narrowing the
  product's operands to bf16 is the identity on extended reals, so the two message arrays are one function
  (a sum of 64 products, then one product — no law beyond reading both sides entry by entry), and the rest of both
  programs is the same term applied to it. The precondition is not used.
-/
import proofs.«177467_j9268539425563_1_alg».proof.Defs
import proofs.«177467_j9268539425563_1_alg».proof.Proof.Gen.Kernel
import proofs.«177467_j9268539425563_1_alg».proof.Proof.Gen.Kernel.Skeleton
import proofs.«177467_j9268539425563_1_alg».proof.Proof.Gen.Kernel.Launch
import proofs.«177467_j9268539425563_1_alg».proof.Proof.Gen.Kernel.Points
import proofs.«177467_j9268539425563_1_alg».proof.Proof.Gen.Kernel.Frame
import proofs.«177467_j9268539425563_1_alg».proof.Proof.Gen.KernelIdeal
import proofs.«177467_j9268539425563_1_alg».proof.Proof.Gen.KernelIdeal.Skeleton
import proofs.«177467_j9268539425563_1_alg».proof.Proof.Gen.KernelIdeal.Launch
import proofs.«177467_j9268539425563_1_alg».proof.Proof.Gen.KernelIdeal.Points
import proofs.«177467_j9268539425563_1_alg».proof.Proof.Gen.KernelIdeal.Frame
import proofs.«177467_j9268539425563_1_alg».proof.Proof.Gen.ReferenceIdeal
import proofs.«177467_j9268539425563_1_alg».proof.Proof.Gen.Pre_finite_inputs
import proofs.«177467_j9268539425563_1_alg».proof.Proof.Gen.ReferenceIdeal.Run
import proofs.«177467_j9268539425563_1_alg».proof.Proof.Gen.ReferenceIdeal.Read
import proofs.«177467_j9268539425563_1_alg».proof.Proof.EdgeRun
import proofs.«177467_j9268539425563_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at the same function of the arguments. -/
theorem algebraic : Cert.algebraic_KernelIdeal_ReferenceIdeal := by
  intro m ρ m' ρ' _ hagree
  refine ⟨fun c => Cert.KernelIdeal.Edge.result m c, Cert.KernelIdeal.Edge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact (Cert.ReferenceIdeal.Read.val_main_v15_eq _ _ _ _ _ _).trans (Cert.ReferenceIdeal.Edge.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
